-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S128x2048 : Shape := ⟨2, ![128, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S_ : Shape := ⟨0, ![]⟩

class Facts : Prop where
  bcast_S_S128x2048 : S_.BroadcastsInDim S128x2048 (![] : Fin 0 → Fin S128x2048.rank)
  reducesTo_S128x2048_S_d0_1 : S128x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x1 : S_.BroadcastsInDim S2048x1 (![] : Fin 0 → Fin S2048x1.rank)
  reducesTo_S2048x1_S_d0_1 : S2048x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S2048x1 .f32) (main_arg7 : FVec F S1 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x1 .f32 := Host.absf main_arg6
  let main_cst_6 : FVec F S_ .f32 := constant S_ .f32 0x7F800000#32
  let main_v20 : FVec F S2048x1 .f32 := broadcastInDim S2048x1 ![] bcast_S_S2048x1 main_cst_6
  let main_v21 : IVec S2048x1 1 := cmpf .olt main_v19 main_v20
  let main_c_7 : IVec S_ 1 := constantI S_ 1 1#1
  let main_v22 : IVec S_ 1 := (fun x v => Host.reduce IntOp.andi x v reducesTo_S2048x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : IVec S16384x64 32) (main_arg1 : IVec S16384x64 32) (main_arg2 : FVec F S128x2048 .f32) (main_arg3 : FVec F S2048 .f32) (main_arg4 : FVec F S2048x2048 .f32) (main_arg5 : FVec F S2048 .f32) (main_arg6 : FVec F S2048x1 .f32) (main_arg7 : FVec F S1 .f32) : IVec S_ 1 :=
  let main_v0 : FVec F S128x2048 .f32 := Host.absf main_arg2
  let main_cst : FVec F S_ .f32 := constant S_ .f32 0x7F800000#32
  let main_v1 : FVec F S128x2048 .f32 := broadcastInDim S128x2048 ![] bcast_S_S128x2048 main_cst
  let main_v2 : IVec S128x2048 1 := cmpf .olt main_v0 main_v1
  let main_c : IVec S_ 1 := constantI S_ 1 1#1
  let main_v3 : IVec S_ 1 := (fun x v => Host.reduce IntOp.andi x v reducesTo_S128x2048_S_d0_1 h_S_) main_v2 main_c
  let main_v4 : FVec F S2048 .f32 := Host.absf main_arg3
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg6 main_arg7 main_v13 main_v16
-- ==== Kernel.lean ====
abbrev S16384x64 : Shape := ⟨2, ![16384, 64]⟩
abbrev S128x2048 : Shape := ⟨2, ![128, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S1x2048 : Shape := ⟨2, ![1, 2048]⟩
abbrev S1x1 : Shape := ⟨2, ![1, 1]⟩
abbrev S16384 : Shape := ⟨1, ![16384]⟩
abbrev S2048x64 : Shape := ⟨2, ![2048, 64]⟩
abbrev S64x2048 : Shape := ⟨2, ![64, 2048]⟩
abbrev S1024x64 : Shape := ⟨2, ![1024, 64]⟩
abbrev S1024x2048 : Shape := ⟨2, ![1024, 2048]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S16384x64, .i32⟩
  | .hbm, ⟨1, _⟩ => ⟨S16384x64, .i32⟩
  | .hbm, ⟨2, _⟩ => ⟨S128x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x1, .f32⟩
  | .hbm, ⟨7, _⟩ => ⟨S1, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x1, .f32⟩
  | .hbm, ⟨12, _⟩ => ⟨S16384, .f32⟩
  | .local _ .vmem, ⟨0, _⟩ => ⟨S2048x64, .i32⟩
  | .local _ .vmem, ⟨1, _⟩ => ⟨S2048x64, .i32⟩
  | .local _ .vmem, ⟨2, _⟩ => ⟨S2048x64, .i32⟩
  | .local _ .vmem, ⟨3, _⟩ => ⟨S2048x64, .i32⟩
  | .local _ .vmem, ⟨4, _⟩ => ⟨S128x2048, .f32⟩
  | .local _ .vmem, ⟨5, _⟩ => ⟨S1x2048, .f32⟩
  | .local _ .vmem, ⟨6, _⟩ => ⟨S2048x2048, .f32⟩
  | .local _ .vmem, ⟨7, _⟩ => ⟨S1x2048, .f32⟩
  | .local _ .vmem, ⟨8, _⟩ => ⟨S1x2048, .f32⟩
  | .local _ .vmem, ⟨9, _⟩ => ⟨S1x1, .f32⟩
  | .local _ .vmem, ⟨10, _⟩ => ⟨S2048, .f32⟩
  | .local _ .vmem, ⟨11, _⟩ => ⟨S2048, .f32⟩
  | .local _ .vmem, ⟨12, _⟩ => ⟨S128x2048, .bf16⟩
  | .local _ .vmem, ⟨13, _⟩ => ⟨S2048x2048, .bf16⟩
  | _, _ => ⟨S16384x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2048_S1x2048 : S2048.ShapeCasts S1x2048
  shapeCasts_S2048x1_S1x2048 : S2048x1.ShapeCasts S1x2048
  shapeCasts_S1_S1x1 : S1.ShapeCasts S1x1
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  shapeCasts_S128x2048_S128x2048 : S128x2048.ShapeCasts S128x2048
  packedbf16_S128x2048_S128x2048_0_0 : (Rect.unit (s := S128x2048) ![0, 0] S128x2048.size inb_S128x2048_S128x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  inb_S128x2048_S64x2048_0_0 : ∀ a, (![0, 0] : Fin 2 → Nat) a + S64x2048.size a ≤ S128x2048.size a
  h_S64x2048 : 0 < S64x2048.numel
  inb_S128x2048_S64x2048_64_0 : ∀ a, (![64, 0] : Fin 2 → Nat) a + S64x2048.size a ≤ S128x2048.size a
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048x64_S1024x64_0_0 : ∀ a, (![0, 0] : Fin 2 → Nat) a + S1024x64.size a ≤ S2048x64.size a
  h_S1024x64 : 0 < S1024x64.numel
  inb_S2048x64_S1024x64_1024_0 : ∀ a, (![1024, 0] : Fin 2 → Nat) a + S1024x64.size a ≤ S2048x64.size a
  broadcasts_S1x2048_S1024x2048 : S1x2048.Broadcasts S1024x2048
  reduces_S1024x2048_S1024 : S1024x2048.Reduces [1] S1024
  inb_S2048_S1024_0 : ∀ a, (![0] : Fin 1 → Nat) a + S1024.size a ≤ S2048.size a
  h_S1024 : 0 < S1024.numel
  inb_S2048_S1024_1024 : ∀ a, (![1024] : Fin 1 → Nat) a + S1024.size a ≤ S2048.size a
  dot_S1024x64_S64x2048_S1024x2048_1_0_0_1_n_n_wf : DotDims.WF S1024x64 S64x2048 S1024x2048 [1] [0] [0] [1] [] []
  dot_S1024x2048_S2048x2048_S1024x2048_1_0_0_1_n_n_wf : DotDims.WF S1024x2048 S2048x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .i32 = 32 ∨ (Rect.block (s := S16384x64) S2048x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .i32 = 32 ∨ (Rect.block (s := S16384x64) S2048x64.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x2048.size a
  hwx0_2 : ∀ i : grid0.Coords, EltTy.bits .f32 = 32 ∨ (Rect.block (s := S128x2048) S128x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .f32 = 32 ∨ (Rect.block (s := S2048x2048) S2048x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S16384.size a
  hwx0_8 : ∀ i : grid0.Coords, EltTy.bits .f32 = 32 ∨ (Rect.block (s := S16384) S2048.size (cc0_transform_8 i) (hinb0_8 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x64 : Shape := ⟨2, ![16384, 64]⟩
abbrev S128x2048 : Shape := ⟨2, ![128, 2048]⟩
abbrev S2048 : Shape := ⟨1, ![2048]⟩
abbrev S2048x2048 : Shape := ⟨2, ![2048, 2048]⟩
abbrev S2048x1 : Shape := ⟨2, ![2048, 1]⟩
abbrev S1 : Shape := ⟨1, ![1]⟩
abbrev S16384x128 : Shape := ⟨2, ![16384, 128]⟩
abbrev S16384x2048 : Shape := ⟨2, ![16384, 2048]⟩
abbrev S1x2048 : Shape := ⟨2, ![1, 2048]⟩
abbrev S16384x1 : Shape := ⟨2, ![16384, 1]⟩
abbrev S1x1 : Shape := ⟨2, ![1, 1]⟩
abbrev S16384 : Shape := ⟨1, ![16384]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x64, .i32⟩
  | .hbm, ⟨1, _⟩ => ⟨S16384x64, .i32⟩
  | .hbm, ⟨2, _⟩ => ⟨S128x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x1, .f32⟩
  | .hbm, ⟨7, _⟩ => ⟨S1, .f32⟩
  | .hbm, ⟨8, _⟩ => ⟨S16384x128, .i32⟩
  | .hbm, ⟨9, _⟩ => ⟨S16384x128, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x1, .f32⟩
  | .hbm, ⟨21, _⟩ => ⟨S1x1, .f32⟩
  | .hbm, ⟨22, _⟩ => ⟨S16384x1, .f32⟩
  | .hbm, ⟨23, _⟩ => ⟨S16384x1, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | _, _ => ⟨S16384x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  concatenates_S16384x64_S16384x64_S16384x128_d1 : Shape.Concatenates [S16384x64, S16384x64] S16384x128 1
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  bcast_S_S16384 : S_.BroadcastsInDim S16384 (![] : Fin 0 → Fin S16384.rank)
  dot_S16384x128_S128x2048_S16384x2048_1_0_0_1_n_n_wf : DotDims.WF S16384x128 S128x2048 S16384x2048 [1] [0] [0] [1] [] []
  dot_S16384x2048_S2048x2048_S16384x2048_1_0_0_1_n_n_wf : DotDims.WF S16384x2048 S2048x2048 S16384x2048 [1] [0] [0] [1] [] []
  dot_S16384x2048_S2048x1_S16384x1_1_0_0_1_n_n_wf : DotDims.WF S16384x2048 S2048x1 S16384x1 [1] [0] [0] [1] [] []

variable [Facts₀]

def dot_S16384x128_S128x2048_S16384x2048_1_0_0_1_n_n : DotDims S16384x128 S128x2048 S16384x2048 where
  lhsContracting := [1]
  rhsContracting := [0]
  lhsNonContracting := [0]
  rhsNonContracting := [1]
  lhsBatch := []
  rhsBatch := []
  wf := dot_S16384x128_S128x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.TilePieces.lean ====
/-
  What one grid point of the kernel leaves behind, as values.

  At every point the body computes, for the 2048 rows of its batch tile, the network's output from the tile's
  occupation numbers, the two bias rows, the read-out row and bias, and the two weight matrices as the scratch
  buffers hold them; it stores the first 1024 rows' results and then the last 1024 rows' results, which together fill
  the output block (`tile`).  At the first point it first fills the two scratch buffers with the weight matrices
  (cast to the narrower float format) and reads them back, so there the tile is computed from the casts of the
  matrices just fetched (`out_first`); at every later point from whatever the scratch buffers held on entry
  (`out_later`).  The scratch buffers end the first point holding the casts (`scratch₁_first`, `scratch₂_first`).
-/
import proofs.«177548_g17669495456005_cont_8to1_950_6_alg».proof.Proof.Gen.KernelIdeal.Frame
import Idealize.ShloMosaic.Lib.Pipeline.Value

set_option maxRecDepth 16384

noncomputable section

namespace Cert.KernelIdeal.Tile

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl

/-- The first 1024 rows' results: the payload of the first store, over the tile's first 1024 rows of occupation
    numbers and the top and bottom halves of the first weight matrix as the scratch holds it. -/
def firstHalf (x0 x1 : Vec F S2048x64 .i32) (x3 x5 x6 : Vec F S1x2048 .f32) (x7 : Vec F S1x1 .f32)
    (s1 : Vec F S128x2048 .bf16) (s2 : Vec F S2048x2048 .bf16) : FVec F S1024 .f32 :=
  k0_pay1 s2 (k0_pay6 x5) (k0_pay7 x6) (k0_pay8 x7)
    (k0_pay10 (View.ld s1 (Rect.unit (s := S128x2048) ![0, 0] S64x2048.size inb_S128x2048_S64x2048_0_0))
      (View.ld s1 (Rect.unit (s := S128x2048) ![64, 0] S64x2048.size inb_S128x2048_S64x2048_64_0)) x3
      (View.ld x0 (Rect.unit (s := S2048x64) ![0, 0] S1024x64.size inb_S2048x64_S1024x64_0_0))
      (View.ld x1 (Rect.unit (s := S2048x64) ![0, 0] S1024x64.size inb_S2048x64_S1024x64_0_0)))

/-- The last 1024 rows' results: the payload of the second store. -/
def secondHalf (x0 x1 : Vec F S2048x64 .i32) (x3 x5 x6 : Vec F S1x2048 .f32) (x7 : Vec F S1x1 .f32)
    (s1 : Vec F S128x2048 .bf16) (s2 : Vec F S2048x2048 .bf16) : FVec F S1024 .f32 :=
  k0_pay2 s2 (k0_pay5 x3) (k0_pay6 x5) (k0_pay7 x6) (k0_pay8 x7)
    (k0_pay9 (View.ld s1 (Rect.unit (s := S128x2048) ![0, 0] S64x2048.size inb_S128x2048_S64x2048_0_0))
      (View.ld s1 (Rect.unit (s := S128x2048) ![64, 0] S64x2048.size inb_S128x2048_S64x2048_64_0))
      (View.ld x0 (Rect.unit (s := S2048x64) ![1024, 0] S1024x64.size inb_S2048x64_S1024x64_1024_0))
      (View.ld x1 (Rect.unit (s := S2048x64) ![1024, 0] S1024x64.size inb_S2048x64_S1024x64_1024_0)))

/-- The output block a point leaves: the two stores' payloads laid over rows 0–1023 and 1024–2047. -/
def tile (x0 x1 : Vec F S2048x64 .i32) (x3 x5 x6 : Vec F S1x2048 .f32) (x7 : Vec F S1x1 .f32)
    (s1 : Vec F S128x2048 .bf16) (s2 : Vec F S2048x2048 .bf16) : Vec F S2048 .f32 :=
  View.canon
    [⟨Rect.unit (s := S2048) ![1024] S1024.size inb_S2048_S1024_1024, secondHalf x0 x1 x3 x5 x6 x7 s1 s2⟩,
     ⟨Rect.unit (s := S2048) ![0] S1024.size inb_S2048_S1024_0, firstHalf x0 x1 x3 x5 x6 x7 s1 s2⟩]

/-- At a later point the output block is the tile computed from what the scratch buffers held on entry. -/
theorem out_later (c : Dev nD) (i : grid0.Coords) (arg1 : Memref sig .tc .vmem S2048x64 .i32) (harg1 : arg1.IsWhole) (arg2 : Memref sig .tc .vmem S2048x64 .i32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x1 .f32) (harg8 : arg8.IsWhole) (arg9 : Memref sig .tc .vmem S2048 .f32) (harg9 : arg9.IsWhole) (arg10 : Memref sig .tc .vmem S128x2048 .bf16) (harg10 : arg10.IsWhole) (arg11 : Memref sig .tc .vmem S2048x2048 .bf16) (harg11 : arg11.IsWhole) (hc0 : ¬cond0_0 i) (x0 : Vec F S2048x64 .i32) (x1 : Vec F S2048x64 .i32) (x2 : Vec F S128x2048 .f32) (x3 : Vec F S1x2048 .f32) (x4 : Vec F S2048x2048 .f32) (x5 : Vec F S1x2048 .f32) (x6 : Vec F S1x2048 .f32) (x7 : Vec F S1x1 .f32) (xs0 : Vec F S128x2048 .bf16) (xs1 : Vec F S2048x2048 .bf16) :
    out0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1 = tile x0 x1 x3 x5 x6 x7 xs0 xs1 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xs0 xs1)]
  unfold kernelRun0_B
  dsimp only
  sl_unfold_words
  simp only [View.readAt_eq_ld, harg1.read_unread, harg2.read_unread, harg4.read_unread, harg6.read_unread,
    harg7.read_unread, harg8.read_unread, harg10.read_unread, harg11.read_unread,
    View.ld_unit_zero (S := S2048x2048) hz2, View.ld_unit_zero (S := S1x2048) hz2, View.ld_unit_zero (S := S1x1) hz2]
  rfl

/-- At the first point the first scratch buffer ends holding the cast of the first weight matrix, -/
theorem scratch₁_first (c : Dev nD) (i : grid0.Coords) (arg1 : Memref sig .tc .vmem S2048x64 .i32) (harg1 : arg1.IsWhole) (arg2 : Memref sig .tc .vmem S2048x64 .i32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x1 .f32) (harg8 : arg8.IsWhole) (arg9 : Memref sig .tc .vmem S2048 .f32) (harg9 : arg9.IsWhole) (arg10 : Memref sig .tc .vmem S128x2048 .bf16) (harg10 : arg10.IsWhole) (arg11 : Memref sig .tc .vmem S2048x2048 .bf16) (harg11 : arg11.IsWhole) (hc0 : cond0_0 i) (x0 : Vec F S2048x64 .i32) (x1 : Vec F S2048x64 .i32) (x2 : Vec F S128x2048 .f32) (x3 : Vec F S1x2048 .f32) (x4 : Vec F S2048x2048 .f32) (x5 : Vec F S1x2048 .f32) (x6 : Vec F S1x2048 .f32) (x7 : Vec F S1x1 .f32) :
    sout0_A_0 c i arg1 harg1 arg2 harg2 arg3 harg3 arg4 harg4 arg5 harg5 arg6 harg6 arg7 harg7 arg8 harg8 arg9 harg9 arg10 harg10 arg11 harg11 hc0 x0 x1 x2 x3 x4 x5 x6 x7 = k0_pay3 x2 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz2]
  simp only [View.readAt_eq_ld, harg3.read_unread, View.ld_unit_zero (S := S128x2048) hz2]

/-- the second the cast of the second, -/
theorem scratch₂_first (c : Dev nD) (i : grid0.Coords) (arg1 : Memref sig .tc .vmem S2048x64 .i32) (harg1 : arg1.IsWhole) (arg2 : Memref sig .tc .vmem S2048x64 .i32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x1 .f32) (harg8 : arg8.IsWhole) (arg9 : Memref sig .tc .vmem S2048 .f32) (harg9 : arg9.IsWhole) (arg10 : Memref sig .tc .vmem S128x2048 .bf16) (harg10 : arg10.IsWhole) (arg11 : Memref sig .tc .vmem S2048x2048 .bf16) (harg11 : arg11.IsWhole) (hc0 : cond0_0 i) (x0 : Vec F S2048x64 .i32) (x1 : Vec F S2048x64 .i32) (x2 : Vec F S128x2048 .f32) (x3 : Vec F S1x2048 .f32) (x4 : Vec F S2048x2048 .f32) (x5 : Vec F S1x2048 .f32) (x6 : Vec F S1x2048 .f32) (x7 : Vec F S1x1 .f32) :
    sout0_A_1 c i arg1 harg1 arg2 harg2 arg3 harg3 arg4 harg4 arg5 harg5 arg6 harg6 arg7 harg7 arg8 harg8 arg9 harg9 arg10 harg10 arg11 harg11 hc0 x0 x1 x2 x3 x4 x5 x6 x7 = k0_pay4 x4 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_unit_zero hz2]
  simp only [View.readAt_eq_ld, harg5.read_unread, View.ld_unit_zero (S := S2048x2048) hz2]

/-- A load, through any rectangle, of a buffer after ONE store of `w` over the whole of it reads `w` through that
    rectangle, whatever the buffer's shape. -/
theorem readBack {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld v _ r (fun y => ⟨_, List.mem_singleton_self _, View.mem_set_unit_zero h inb y⟩),
    View.canon_unit_zero h]

/-- and the output block is the tile computed from those casts, read back from the scratch buffers. -/
theorem out_first (c : Dev nD) (i : grid0.Coords) (arg1 : Memref sig .tc .vmem S2048x64 .i32) (harg1 : arg1.IsWhole) (arg2 : Memref sig .tc .vmem S2048x64 .i32) (harg2 : arg2.IsWhole) (arg3 : Memref sig .tc .vmem S128x2048 .f32) (harg3 : arg3.IsWhole) (arg4 : Memref sig .tc .vmem S1x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x1 .f32) (harg8 : arg8.IsWhole) (arg9 : Memref sig .tc .vmem S2048 .f32) (harg9 : arg9.IsWhole) (arg10 : Memref sig .tc .vmem S128x2048 .bf16) (harg10 : arg10.IsWhole) (arg11 : Memref sig .tc .vmem S2048x2048 .bf16) (harg11 : arg11.IsWhole) (hc0 : cond0_0 i) (x0 : Vec F S2048x64 .i32) (x1 : Vec F S2048x64 .i32) (x2 : Vec F S128x2048 .f32) (x3 : Vec F S1x2048 .f32) (x4 : Vec F S2048x2048 .f32) (x5 : Vec F S1x2048 .f32) (x6 : Vec F S1x2048 .f32) (x7 : Vec F S1x1 .f32) :
    out0_A_8 c i arg1 harg1 arg2 harg2 arg3 harg3 arg4 harg4 arg5 harg5 arg6 harg6 arg7 harg7 arg8 harg8 arg9 harg9 arg10 harg10 arg11 harg11 hc0 x0 x1 x2 x3 x4 x5 x6 x7 = tile x0 x1 x3 x5 x6 x7 (k0_pay3 x2) (k0_pay4 x4) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [readBack (S := S2048x2048) _ hz2, readBack (S := S128x2048) _ hz2, readBack (S := S128x2048) _ hz2]
  simp only [View.readAt_eq_ld, harg1.read_unread, harg2.read_unread, harg3.read_unread, harg4.read_unread, harg5.read_unread,
    harg6.read_unread, harg7.read_unread, harg8.read_unread,
    View.ld_unit_zero (S := S2048x2048) hz2, View.ld_unit_zero (S := S128x2048) hz2, View.ld_unit_zero (S := S1x2048) hz2, View.ld_unit_zero (S := S1x1) hz2]
  unfold tile firstHalf secondHalf
  rfl

end Cert.KernelIdeal.Tile

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«177548_g17669495456005_cont_8to1_950_6_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«177548_g17669495456005_cont_8to1_950_6_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibTanhNetwork.lean ====
/-
  A perceptron of two `tanh` hidden layers and a scalar read-out, as a plain function of matrices of extended reals,
  generic in the extents.

  The network takes, for each of `a` rows, the first layer's products `p (r, j)` — the row of inputs times column `j`
  of the first weight matrix — and computes

      out r = two · ( ∑ₖ tanh ( ∑ⱼ tanh (p (r, j) + b₁ j) · W₂ (j, k) + b₂ k ) · w₃ k  +  b₃ ).

  Everything is stated entry by entry, so that it reads the same on a block of rows and on the whole batch: `out r`
  depends on `p` only through its row `r` (`logProb_congr`).

  The inputs come in two halves, `α` and `β`, of `m` columns each (integer words, read signed: `occ`).  One
  program multiplies the joined row `[α | β]` by the whole first weight matrix, another multiplies `α` by the top `m`
  rows of the matrix and `β` by the bottom `m` rows and adds the two products.  The two agree because a sum over
  `m + m` indices is the sum over the first `m` plus the sum over the last `m` (`prodRow_halves`, `prodRow_joined`);
  no other law of the extended reals is needed, so nothing here asks the entries to be finite.  `network` is the
  whole function of the eight arrays: two input arrays `[a, m]`, weights `[m + m, H]`, `[H, H]`, `[H, 1]`, biases
  `[H]`, `[H]`, `[1]`.
-/
import Idealize.ShloMosaic.Lib.ValueIdx
import Idealize.ShloMosaic.PureOps.Ideal.Laws
import proofs.«177548_g17669495456005_cont_8to1_950_6_alg».proof.Proof.LibBiasLayer

noncomputable section

namespace Cert.TanhNetwork

open Idealize.ShloMosaic Idealize.ShloMosaic.ValueIdx Cert.DenseLayer Cert.BiasLayer

variable {a a' m H : ℕ}

/-! ## The layers after the first product -/

/-- A hidden layer's activations from its products: `tanh (p (r, j) + b j)`. -/
def act (p : Mat a H) (b : Row H) : Mat a H := fun i => Ideal.tanh (p i + b (ix1 (i 1)))

/-- The second hidden layer: `tanh (act p b₁ · W₂ + b₂)`, entry by entry. -/
def hidden (p : Mat a H) (b₁ : Row H) (W₂ : Mat H H) (b₂ : Row H) : Mat a H :=
  fun i => Ideal.tanh (affine (act p b₁) W₂ b₂ i)

/-- The read-out of row `r`: the row of `h` against the weights `w₃`, plus `b₃`, times `two`. -/
def readout (h : Mat a H) (w₃ : Fin H → EReal) (b₃ two : EReal) (r : Fin a) : EReal :=
  two * ((∑ k : Fin H, h (ix2 r k) * w₃ k) + b₃)

/-- The whole network after the first product. -/
def logProb (p : Mat a H) (b₁ : Row H) (W₂ : Mat H H) (b₂ : Row H) (w₃ : Fin H → EReal) (b₃ two : EReal)
    (r : Fin a) : EReal :=
  readout (hidden p b₁ W₂ b₂) w₃ b₃ two r

theorem act_apply (p : Mat a H) (b : Row H) (r : Fin a) (j : Fin H) :
    act p b (ix2 r j) = Ideal.tanh (p (ix2 r j) + b (ix1 j)) := rfl

theorem hidden_apply (p : Mat a H) (b₁ : Row H) (W₂ : Mat H H) (b₂ : Row H) (r : Fin a) (k : Fin H) :
    hidden p b₁ W₂ b₂ (ix2 r k) = Ideal.tanh (affine (act p b₁) W₂ b₂ (ix2 r k)) := rfl

/-- The network's value on a row depends on the first products only through that row: two matrices of products,
    of any heights, that agree along a row of each give the same value there. -/
theorem logProb_congr (p : Mat a H) (p' : Mat a' H) (b₁ : Row H) (W₂ : Mat H H) (b₂ : Row H)
    (w₃ : Fin H → EReal) (b₃ two : EReal) (r : Fin a) (r' : Fin a')
    (h : ∀ j, p (ix2 r j) = p' (ix2 r' j)) :
    logProb p b₁ W₂ b₂ w₃ b₃ two r = logProb p' b₁ W₂ b₂ w₃ b₃ two r' := by
  unfold logProb readout
  refine congrArg (fun s => two * (s + b₃)) (Finset.sum_congr rfl fun k _ => ?_)
  rw [hidden_apply, hidden_apply]
  refine congrArg (fun s => Ideal.tanh s * w₃ k) ?_
  exact affine_congr (act p b₁) (act p' b₁) W₂ b₂ r r' (fun j => by rw [act_apply, act_apply, h j]) k

/-! ## The first product, whole or in two halves -/

/-- A row of `m + m` entries against a matrix of `m + m` rows is the first `m` entries against the top `m` rows
    plus the last `m` entries against the bottom `m` rows. -/
theorem prodRow_halves {N : ℕ} (x : Mat a (m + m)) (xα xβ : Mat a' m) (W : Mat (m + m) N) (Wt Wb : Mat m N)
    (r : Fin a) (r' : Fin a')
    (hα : ∀ k : Fin m, x (ix2 r (Fin.castAdd m k)) = xα (ix2 r' k))
    (hβ : ∀ k : Fin m, x (ix2 r (Fin.natAdd m k)) = xβ (ix2 r' k))
    (ht : ∀ (k : Fin m) (q : Fin N), W (ix2 (Fin.castAdd m k) q) = Wt (ix2 k q))
    (hb : ∀ (k : Fin m) (q : Fin N), W (ix2 (Fin.natAdd m k) q) = Wb (ix2 k q)) (q : Fin N) :
    prodRow x W r q = prodRow xα Wt r' q + prodRow xβ Wb r' q := by
  unfold prodRow
  rw [Fin.sum_univ_add]
  refine congrArg₂ (· + ·) (Finset.sum_congr rfl fun k _ => ?_) (Finset.sum_congr rfl fun k _ => ?_)
  · rw [hα k, ht k q]
  · rw [hβ k, hb k q]

/-- Two row products agree when the rows agree entry by entry and the columns do. -/
theorem prodRow_congr₂ {K N : ℕ} (x : Mat a K) (x' : Mat a' K) (w w' : Mat K N) (r : Fin a) (r' : Fin a') (q : Fin N)
    (hx : ∀ k, x (ix2 r k) = x' (ix2 r' k)) (hw : ∀ k, w (ix2 k q) = w' (ix2 k q)) :
    prodRow x w r q = prodRow x' w' r' q :=
  Finset.sum_congr rfl fun k _ => by rw [hx k, hw k]

/-! ## The whole network, from the arrays the programs are given -/

/-- The occupation numbers as extended reals: each 32-bit word read as a signed integer. -/
def occ (x : (⟨2, ![a, m]⟩ : Shape).Idx → BitVec 32) : Mat a m := fun i => (((x i).toInt : ℝ) : EReal)

/-- The top `m` rows of a matrix of `m + m` rows, -/
def topRows {N : ℕ} (W : Mat (m + m) N) : Mat m N := fun i => W (ix2 (Fin.castAdd m (i 0)) (i 1))

/-- and its bottom `m` rows. -/
def botRows {N : ℕ} (W : Mat (m + m) N) : Mat m N := fun i => W (ix2 (Fin.natAdd m (i 0)) (i 1))

/-- The first layer's products, in two halves: `α` against the top rows plus `β` against the bottom rows. -/
def firstProd (xα xβ : Mat a m) (W : Mat (m + m) H) : Mat a H :=
  fun i => prodRow xα (topRows W) (i 0) (i 1) + prodRow xβ (botRows W) (i 0) (i 1)

theorem firstProd_apply (xα xβ : Mat a m) (W : Mat (m + m) H) (r : Fin a) (j : Fin H) :
    firstProd xα xβ W (ix2 r j) = prodRow xα (topRows W) r j + prodRow xβ (botRows W) r j := rfl

/-- The network on a batch of `a` configurations: from the two arrays of occupation numbers `[a, m]`, the weights
    `W₁ [m + m, H]`, `W₂ [H, H]`, `W₃ [H, 1]` and the biases `b₁ [H]`, `b₂ [H]`, `b₃ [1]`, the vector `[a]` of outputs
    (`two` is the final factor, kept as whatever the programs' constant denotes). -/
def network (x₀ x₁ : (⟨2, ![a, m]⟩ : Shape).Idx → BitVec 32) (W₁ : Mat (m + m) H) (b₁ : Row H) (W₂ : Mat H H) (b₂ : Row H)
    (W₃ : Mat H 1) (b₃ : Row 1) (two : EReal) : Row a :=
  fun i => logProb (firstProd (occ x₀) (occ x₁) W₁) b₁ W₂ b₂ (fun k => W₃ (ix2 k (0 : Fin 1))) (b₃ (ix1 (0 : Fin 1))) two (i 0)

theorem network_apply (x₀ x₁ : (⟨2, ![a, m]⟩ : Shape).Idx → BitVec 32) (W₁ : Mat (m + m) H) (b₁ : Row H) (W₂ : Mat H H)
    (b₂ : Row H) (W₃ : Mat H 1) (b₃ : Row 1) (two : EReal) (r : Fin a) :
    network x₀ x₁ W₁ b₁ W₂ b₂ W₃ b₃ two (ix1 r)
      = logProb (firstProd (occ x₀) (occ x₁) W₁) b₁ W₂ b₂ (fun k => W₃ (ix2 k (0 : Fin 1))) (b₃ (ix1 (0 : Fin 1))) two r := rfl

/-- The first layer's product of the joined row `[α | β]` with the whole matrix is the sum of the two halves'
    products: what joins a program that concatenates first to one that multiplies the halves apart. -/
theorem prodRow_joined (x : Mat a (m + m)) (xα xβ : Mat a m) (W : Mat (m + m) H) (r : Fin a)
    (hα : ∀ k : Fin m, x (ix2 r (Fin.castAdd m k)) = xα (ix2 r k))
    (hβ : ∀ k : Fin m, x (ix2 r (Fin.natAdd m k)) = xβ (ix2 r k)) (j : Fin H) :
    prodRow x W r j = firstProd xα xβ W (ix2 r j) :=
  prodRow_halves x xα xβ W (topRows W) (botRows W) r r hα hβ (fun _ _ => rfl) (fun _ _ => rfl) j

end Cert.TanhNetwork

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«177548_g17669495456005_cont_8to1_950_6_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.TileValue.lean ====
/-
  The output block of one grid point, read at the ideal values: row `r` of the tile is the network's output on row
  `r` of the tile's occupation numbers.

  Both halves of the tile are one computation on 1024 rows: the first layer's products in two halves plus the bias
  row, `tanh`, the product with the second weight matrix plus its bias row, `tanh`, the row's product with the
  read-out weights plus the read-out bias, times the final factor (`half_apply`).  The casts to the narrower float
  format, of the weight matrices and of the first activations, are the identity at the ideal values.  A row of a half
  is a row of the tile, and the network's value on a row depends only on that row (`logProb_congr`), so the tile is
  one function of its 2048 rows (`tile_apply`).
-/
import proofs.«177548_g17669495456005_cont_8to1_950_6_alg».proof.Proof.TilePieces
import proofs.«177548_g17669495456005_cont_8to1_950_6_alg».proof.Proof.LibTanhNetwork
import proofs.«177548_g17669495456005_cont_8to1_950_6_alg».proof.Proof.LibPlainDot

set_option maxRecDepth 16384

noncomputable section

namespace Cert.KernelIdeal.Tile

open Cert.KernelIdeal Cert.KernelIdeal.Gen Idealize.ShloMosaic Idealize.ShloMosaic.ValueIdx
open Cert.DenseLayer Cert.BiasLayer Cert.TanhNetwork

/-- The final factor, as the word both programs write. -/
abbrev two : EReal := Ideal.ofBits .f32 0x40000000#32

theorem plain₁ : PlainDot dot_S1024x64_S64x2048_S1024x2048_1_0_0_1_n_n := plainDot_of_axes _ rfl rfl rfl rfl rfl rfl
theorem plain₂ : PlainDot dot_S1024x2048_S2048x2048_S1024x2048_1_0_0_1_n_n := plainDot_of_axes _ rfl rfl rfl rfl rfl rfl

/-- The first layer's products on 1024 rows, at `(r, j)`: the two halves' row products, added. -/
theorem firstProducts_apply (w₁t w₁b : FVec Ideal S64x2048 .bf16) (xα xβ : Vec Ideal S1024x64 .i32) (r : Fin 1024) (j : Fin 2048) :
    k0_pay9 (F := Ideal) w₁t w₁b xα xβ (ix2 r j) = prodRow (occ xα) w₁t r j + prodRow (occ xβ) w₁b r j := by
  unfold k0_pay9
  show FloatOps.matmul (F := Ideal) dot_S1024x64_S64x2048_S1024x2048_1_0_0_1_n_n none (sitofp (F := Ideal) .bf16 xα) w₁t (constant S1024x2048 .f32 0x00000000#32) (ix2 r j)
      + FloatOps.matmul (F := Ideal) dot_S1024x64_S64x2048_S1024x2048_1_0_0_1_n_n none (sitofp (F := Ideal) .bf16 xβ) w₁b (constant S1024x2048 .f32 0x00000000#32) (ix2 r j) = _
  exact congrArg₂ (· + ·) (matmul_zero_apply plain₁ none (sitofp (F := Ideal) .bf16 xα) w₁t (ix2 r j))
    (matmul_zero_apply plain₁ none (sitofp (F := Ideal) .bf16 xβ) w₁b (ix2 r j))

/-- One half of the tile at row `r`: the network on the half's 1024 rows. -/
theorem half_apply (xα xβ : Vec Ideal S1024x64 .i32) (x3 x5 x6 : FVec Ideal S1x2048 .f32) (x7 : FVec Ideal S1x1 .f32)
    (w₁t w₁b : FVec Ideal S64x2048 .bf16) (w₂ : FVec Ideal S2048x2048 .bf16) (r : Fin 1024) :
    k0_pay1 (F := Ideal) w₂ (k0_pay6 x5) (k0_pay7 x6) (k0_pay8 x7)
        (addf (k0_pay9 w₁t w₁b xα xβ) (broadcastTo S1024x2048 (k0_pay5 x3) broadcasts_S1x2048_S1024x2048)) (ix1 r)
      = logProb (a := 1024) (H := 2048) (fun i => prodRow (occ xα) w₁t (i 0) (i 1) + prodRow (occ xβ) w₁b (i 0) (i 1))
          (fun i => x3 (ix2 (0 : Fin 1) (i 0))) w₂ (fun i => x5 (ix2 (0 : Fin 1) (i 0)))
          (fun k => x6 (ix2 (0 : Fin 1) k)) (k0_pay8 (F := Ideal) x7) two r := by
  unfold k0_pay1 k0_pay5 k0_pay6 k0_pay7
  rw [shapeCast_self, shapeCast_self, shapeCast_self]
  unfold logProb readout
  show two * (multiReduction (F := Ideal) .add [1] S1024 _ 0x00000000#32 reduces_S1024x2048_S1024 (.inl rfl) rfl (ix1 r) + k0_pay8 (F := Ideal) x7) = _
  refine congrArg (fun s => two * (s + k0_pay8 (F := Ideal) x7)) ?_
  refine (Cert.ColumnLayout.multiReduction_add_rows_apply _ _ reduces_S1024x2048_S1024 (.inl rfl) rfl r).trans ?_
  refine Finset.sum_congr rfl fun k _ => ?_
  rw [hidden_apply, affine_apply]
  show Ideal.tanh (FloatOps.matmul (F := Ideal) (φ₁ := .bf16) dot_S1024x2048_S2048x2048_S1024x2048_1_0_0_1_n_n none _ w₂ (constant S1024x2048 .f32 0x00000000#32) (ix2 r k)
      + broadcastTo S1024x2048 x5 broadcasts_S1x2048_S1024x2048 (ix2 r k)) * broadcastTo S1024x2048 x6 broadcasts_S1x2048_S1024x2048 (ix2 r k) = _
  rw [broadcastTo_1b_ab_apply, broadcastTo_1b_ab_apply]
  refine congrArg (fun s => Ideal.tanh (s + x5 (ix2 (0 : Fin 1) k)) * x6 (ix2 (0 : Fin 1) k)) ?_
  refine (matmul_zero_apply plain₂ none _ w₂ (ix2 r k)).trans ?_
  unfold prodRow
  refine Finset.sum_congr rfl fun j _ => ?_
  refine congrArg (· * w₂ (ix2 j k)) ?_
  rw [act_apply]
  show Ideal.tanh (k0_pay9 w₁t w₁b xα xβ (ix2 r j) + broadcastTo S1024x2048 x3 broadcasts_S1x2048_S1024x2048 (ix2 r j)) = _
  rw [broadcastTo_1b_ab_apply, firstProducts_apply]
  rfl

/-! ## From a half to the tile -/

/-- At the ideal values the cast of the first weight matrix to the narrower format is the matrix, -/
theorem cast₁_apply (W : Vec Ideal S128x2048 .f32) (i : S128x2048.Idx) : k0_pay3 (F := Ideal) W i = W i := by
  unfold k0_pay3
  rw [shapeCast_self]
  rfl

/-- and so is the second's. -/
theorem cast₂_apply (W : Vec Ideal S2048x2048 .f32) (i : S2048x2048.Idx) : k0_pay4 (F := Ideal) W i = W i := by
  unfold k0_pay4
  rw [shapeCast_self]
  rfl

/-- Row `r` of the 1024 rows of occupation numbers starting at row `o` of the tile is the tile's row `o + r`. -/
theorem occ_rows (x : Vec Ideal S2048x64 .i32) (o : ℕ) (inb : ∀ a, (![o, 0] : Fin 2 → ℕ) a + S1024x64.size a ≤ S2048x64.size a)
    (r : Fin 1024) (r' : Fin 2048) (h : r'.val = o + r.val) (k : Fin 64) :
    occ (a := 1024) (m := 64) (View.ld x (Rect.unit (s := S2048x64) ![o, 0] S1024x64.size inb)) (ix2 r k)
      = occ (a := 2048) (m := 64) x (ix2 r' k) := by
  unfold occ
  show (((x ((Rect.unit (s := S2048x64) ![o, 0] S1024x64.size inb).idx (ix2 r k))).toInt : ℝ) : EReal) = _
  refine congrArg (fun b : BitVec 32 => ((b.toInt : ℝ) : EReal)) (congrArg x (funext fun ax => Fin.ext ?_))
  match ax with
  | ⟨0, _⟩ => show o + 1 * r.val = r'.val; omega
  | ⟨1, _⟩ => show 0 + 1 * k.val = k.val; omega

/-- The top 64 rows of the cast first weight matrix are the matrix's top rows, -/
theorem top_rows (W : Vec Ideal S128x2048 .f32) (k : Fin 64) (q : Fin 2048) :
    View.ld (Val := Elt Ideal) (e' := .bf16) (k0_pay3 (F := Ideal) W) (Rect.unit (s := S128x2048) ![0, 0] S64x2048.size inb_S128x2048_S64x2048_0_0) (ix2 k q)
      = topRows (m := 64) (N := 2048) W (ix2 k q) := by
  show k0_pay3 (F := Ideal) W ((Rect.unit (s := S128x2048) ![0, 0] S64x2048.size inb_S128x2048_S64x2048_0_0).idx (ix2 k q)) = _
  rw [cast₁_apply]
  unfold topRows
  refine congrArg W (funext fun ax => Fin.ext ?_)
  match ax with
  | ⟨0, _⟩ => show 0 + 1 * k.val = k.val; omega
  | ⟨1, _⟩ => show 0 + 1 * q.val = q.val; omega

/-- and its bottom 64 rows the matrix's bottom rows. -/
theorem bottom_rows (W : Vec Ideal S128x2048 .f32) (k : Fin 64) (q : Fin 2048) :
    View.ld (Val := Elt Ideal) (e' := .bf16) (k0_pay3 (F := Ideal) W) (Rect.unit (s := S128x2048) ![64, 0] S64x2048.size inb_S128x2048_S64x2048_64_0) (ix2 k q)
      = botRows (m := 64) (N := 2048) W (ix2 k q) := by
  show k0_pay3 (F := Ideal) W ((Rect.unit (s := S128x2048) ![64, 0] S64x2048.size inb_S128x2048_S64x2048_64_0).idx (ix2 k q)) = _
  rw [cast₁_apply]
  unfold botRows
  refine congrArg W (funext fun ax => Fin.ext ?_)
  match ax with
  | ⟨0, _⟩ => show 64 + 1 * k.val = 64 + k.val; omega
  | ⟨1, _⟩ => show 0 + 1 * q.val = q.val; omega

/-- The network's value on the tile, as one function of the tile's 2048 rows. -/
def tileNet (x0 x1 : Vec Ideal S2048x64 .i32) (x3 x5 x6 : FVec Ideal S1x2048 .f32) (x7 : FVec Ideal S1x1 .f32)
    (W₁ : Vec Ideal S128x2048 .f32) (W₂ : Vec Ideal S2048x2048 .f32) (r : Fin 2048) : EReal :=
  logProb (a := 2048) (H := 2048) (firstProd (m := 64) (occ x0) (occ x1) W₁) (fun i => x3 (ix2 (0 : Fin 1) (i 0))) W₂
    (fun i => x5 (ix2 (0 : Fin 1) (i 0))) (fun k => x6 (ix2 (0 : Fin 1) k)) (k0_pay8 (F := Ideal) x7) two r

/-- Row `r` of the 1024 rows starting at row `o` of the tile: the half's value there is the tile's at row `o + r`. -/
theorem half_eq_tileNet (x0 x1 : Vec Ideal S2048x64 .i32) (x3 x5 x6 : FVec Ideal S1x2048 .f32) (x7 : FVec Ideal S1x1 .f32)
    (W₁ : Vec Ideal S128x2048 .f32) (W₂ : Vec Ideal S2048x2048 .f32) (o : ℕ)
    (inb : ∀ a, (![o, 0] : Fin 2 → ℕ) a + S1024x64.size a ≤ S2048x64.size a) (r : Fin 1024) (r' : Fin 2048) (h : r'.val = o + r.val) :
    k0_pay1 (F := Ideal) (k0_pay4 W₂) (k0_pay6 x5) (k0_pay7 x6) (k0_pay8 x7)
        (addf (k0_pay9 (View.ld (k0_pay3 W₁) (Rect.unit (s := S128x2048) ![0, 0] S64x2048.size inb_S128x2048_S64x2048_0_0))
            (View.ld (k0_pay3 W₁) (Rect.unit (s := S128x2048) ![64, 0] S64x2048.size inb_S128x2048_S64x2048_64_0))
            (View.ld x0 (Rect.unit (s := S2048x64) ![o, 0] S1024x64.size inb)) (View.ld x1 (Rect.unit (s := S2048x64) ![o, 0] S1024x64.size inb)))
          (broadcastTo S1024x2048 (k0_pay5 x3) broadcasts_S1x2048_S1024x2048)) (ix1 r)
      = tileNet x0 x1 x3 x5 x6 x7 W₁ W₂ r' := by
  refine (half_apply _ _ x3 x5 x6 x7 _ _ (k0_pay4 W₂) r).trans ?_
  unfold tileNet
  have hW : (k0_pay4 (F := Ideal) W₂ : Mat 2048 2048) = W₂ := funext fun i => cast₂_apply W₂ i
  rw [hW]
  refine logProb_congr _ _ _ _ _ _ _ _ r r' fun j => ?_
  rw [firstProd_apply]
  exact congrArg₂ (· + ·)
    (prodRow_congr₂ _ _ _ _ r r' j (occ_rows x0 o inb r r' h) (fun k => top_rows W₁ k j))
    (prodRow_congr₂ _ _ _ _ r r' j (occ_rows x1 o inb r r' h) (fun k => bottom_rows W₁ k j))

/-- THE TILE: the output block a point leaves, from the casts of the two weight matrices, holds in row `r` the
    network's value on row `r` of the tile's occupation numbers. -/
theorem tile_apply (x0 x1 : Vec Ideal S2048x64 .i32) (x3 x5 x6 : FVec Ideal S1x2048 .f32) (x7 : FVec Ideal S1x1 .f32)
    (W₁ : Vec Ideal S128x2048 .f32) (W₂ : Vec Ideal S2048x2048 .f32) (y : S2048.Idx) :
    tile (F := Ideal) x0 x1 x3 x5 x6 x7 (k0_pay3 W₁) (k0_pay4 W₂) y = tileNet x0 x1 x3 x5 x6 x7 W₁ W₂ (y 0) := by
  unfold tile
  refine View.canon_apply_of_pieces (Val := Elt Ideal) (e := .f32) (fun y : S2048.Idx => tileNet x0 x1 x3 x5 x6 x7 W₁ W₂ (y 0)) _ ?_ y ?_
  · intro p hp
    rcases List.mem_cons.mp hp with rfl | hp
    · intro x
      obtain ⟨r, rfl⟩ : ∃ r : Fin 1024, x = ix1 r := ⟨x 0, eq_ix1 x⟩
      exact half_eq_tileNet x0 x1 x3 x5 x6 x7 W₁ W₂ 1024 inb_S2048x64_S1024x64_1024_0 r _ (by show 1024 + 1 * r.val = 1024 + r.val; omega)
    · obtain rfl := List.mem_singleton.mp hp
      intro x
      obtain ⟨r, rfl⟩ : ∃ r : Fin 1024, x = ix1 r := ⟨x 0, eq_ix1 x⟩
      exact half_eq_tileNet x0 x1 x3 x5 x6 x7 W₁ W₂ 0 inb_S2048x64_S1024x64_0_0 r _ (by show 0 + 1 * r.val = 0 + r.val; omega)
  · by_cases hy : (y 0).val < 1024
    · refine ⟨_, List.mem_cons_of_mem _ (List.mem_singleton_self _), ?_⟩
      rw [Rect.mem_set_unit]
      intro ax
      match ax with
      | ⟨0, _⟩ => exact ⟨Nat.zero_le _, by show (y 0).val < 0 + 1024; omega⟩
    · refine ⟨_, List.mem_cons_self, ?_⟩
      rw [Rect.mem_set_unit]
      intro ax
      have h2 : (y 0).val < 2048 := (y 0).isLt
      match ax with
      | ⟨0, _⟩ => exact ⟨by show 1024 ≤ (y 0).val; omega, by show (y 0).val < 1024 + 1024; omega⟩

end Cert.KernelIdeal.Tile

end
-- ==== Proof.Sweep.lean ====
/-
  What the grid's eight points leave in the result array.

  The two scratch buffers are filled at the first point with the casts of the two weight matrices and never stored
  into again, so at every point they hold those casts (`scratch_eq`, by induction on the point); hence at every point
  the output block is the tile computed from the casts (`outs_eq`).  Point `t`'s windows read rows `2048 t` to
  `2048 t + 2047` of the two arrays of occupation numbers and the whole of every other array; the bias rows, the
  read-out row and the read-out bias reach the kernel through reshapes of the vectors `b₁`, `b₂`, of the one-column
  matrix `W₃` and of the one-entry vector `b₃`.  So what point `t` writes back is block `t` of the network of the
  eight argument arrays (`flushed_eq`), the eight blocks tile the result array, and the array ends holding the network
  (`final`).
-/
import proofs.«177548_g17669495456005_cont_8to1_950_6_alg».proof.Proof.Gen.KernelIdeal.Value
import proofs.«177548_g17669495456005_cont_8to1_950_6_alg».proof.Proof.TileValue
import Idealize.ShloMosaic.Lib.Pipeline.Value
import Idealize.ShloMosaic.Lib.StableHlo.Run

set_option maxRecDepth 16384

noncomputable section

namespace Cert.KernelIdeal.Sweep

open Cert.KernelIdeal Cert.KernelIdeal.Gen Cert.KernelIdeal.Tile Idealize.ShloMosaic Idealize.ShloMosaic.TcCoe Idealize.SL.Sem
open Idealize.ShloMosaic.ValueIdx Cert.DenseLayer Cert.BiasLayer Cert.TanhNetwork
open Idealize.ShloMosaic.Pipeline (Dat)

variable (m : (ℓ : Loc nD τ sig) → Buf (Elt Ideal) ℓ) (ρ : Dev nD → PrngReg)

/-! ## The windows' blocks -/

/-- At every point the third window's block is the whole first weight matrix (its block index never moves), -/
theorem blk2 (c : Dev nD) (t : Fin cfg0.N) : (iblk m c 2 t : Vec Ideal S128x2048 .f32) = V m c main_arg2 := by
  have hi := (by decide +kernel : ∀ t : Fin grid0.N, win0_2.index t 0 = 0 ∧ win0_2.index t 1 = 0) t
  funext j
  unfold iblk
  rw [View.read_apply]
  show V m c main_arg2 _ = V m c main_arg2 j
  congr 1
  funext ax
  apply Fin.ext
  match ax with
  | ⟨0, _⟩ => show win0_2.index t 0 * 128 + 1 * (j 0).val = (j 0).val; rw [hi.1]; omega
  | ⟨1, _⟩ => show win0_2.index t 1 * 2048 + 1 * (j 1).val = (j 1).val; rw [hi.2]; omega

/-- the fifth's the whole second weight matrix, -/
theorem blk4 (c : Dev nD) (t : Fin cfg0.N) : (iblk m c 4 t : Vec Ideal S2048x2048 .f32) = V m c main_arg4 := by
  have hi := (by decide +kernel : ∀ t : Fin grid0.N, win0_4.index t 0 = 0 ∧ win0_4.index t 1 = 0) t
  funext j
  unfold iblk
  rw [View.read_apply]
  show V m c main_arg4 _ = V m c main_arg4 j
  congr 1
  funext ax
  apply Fin.ext
  match ax with
  | ⟨0, _⟩ => show win0_4.index t 0 * 2048 + 1 * (j 0).val = (j 0).val; rw [hi.1]; omega
  | ⟨1, _⟩ => show win0_4.index t 1 * 2048 + 1 * (j 1).val = (j 1).val; rw [hi.2]; omega

/-- the fourth's the whole first bias row, -/
theorem blk3 (c : Dev nD) (t : Fin cfg0.N) : (iblk m c 3 t : Vec Ideal S1x2048 .f32) = V m c main_v0 := by
  have hi := (by decide +kernel : ∀ t : Fin grid0.N, win0_3.index t 0 = 0 ∧ win0_3.index t 1 = 0) t
  funext j
  unfold iblk
  rw [View.read_apply]
  show V m c main_v0 _ = V m c main_v0 j
  congr 1
  funext ax
  apply Fin.ext
  match ax with
  | ⟨0, _⟩ => show win0_3.index t 0 * 1 + 1 * (j 0).val = (j 0).val; rw [hi.1]; omega
  | ⟨1, _⟩ => show win0_3.index t 1 * 2048 + 1 * (j 1).val = (j 1).val; rw [hi.2]; omega

/-- the sixth's the whole second bias row, -/
theorem blk5 (c : Dev nD) (t : Fin cfg0.N) : (iblk m c 5 t : Vec Ideal S1x2048 .f32) = V m c main_v1 := by
  have hi := (by decide +kernel : ∀ t : Fin grid0.N, win0_5.index t 0 = 0 ∧ win0_5.index t 1 = 0) t
  funext j
  unfold iblk
  rw [View.read_apply]
  show V m c main_v1 _ = V m c main_v1 j
  congr 1
  funext ax
  apply Fin.ext
  match ax with
  | ⟨0, _⟩ => show win0_5.index t 0 * 1 + 1 * (j 0).val = (j 0).val; rw [hi.1]; omega
  | ⟨1, _⟩ => show win0_5.index t 1 * 2048 + 1 * (j 1).val = (j 1).val; rw [hi.2]; omega

/-- the seventh's the whole read-out row, -/
theorem blk6 (c : Dev nD) (t : Fin cfg0.N) : (iblk m c 6 t : Vec Ideal S1x2048 .f32) = V m c main_v2 := by
  have hi := (by decide +kernel : ∀ t : Fin grid0.N, win0_6.index t 0 = 0 ∧ win0_6.index t 1 = 0) t
  funext j
  unfold iblk
  rw [View.read_apply]
  show V m c main_v2 _ = V m c main_v2 j
  congr 1
  funext ax
  apply Fin.ext
  match ax with
  | ⟨0, _⟩ => show win0_6.index t 0 * 1 + 1 * (j 0).val = (j 0).val; rw [hi.1]; omega
  | ⟨1, _⟩ => show win0_6.index t 1 * 2048 + 1 * (j 1).val = (j 1).val; rw [hi.2]; omega

/-- and the eighth's the one read-out bias. -/
theorem blk7 (c : Dev nD) (t : Fin cfg0.N) : (iblk m c 7 t : Vec Ideal S1x1 .f32) = V m c main_v3 := by
  have hi := (by decide +kernel : ∀ t : Fin grid0.N, win0_7.index t 0 = 0 ∧ win0_7.index t 1 = 0) t
  funext j
  unfold iblk
  rw [View.read_apply]
  show V m c main_v3 _ = V m c main_v3 j
  congr 1
  funext ax
  apply Fin.ext
  match ax with
  | ⟨0, _⟩ => show win0_7.index t 0 * 1 + 1 * (j 0).val = (j 0).val; rw [hi.1]; omega
  | ⟨1, _⟩ => show win0_7.index t 1 * 1 + 1 * (j 1).val = (j 1).val; rw [hi.2]; omega

/-- Row `r` of point `t`'s block of the first array of occupation numbers is the array's row `2048 t + r`, -/
theorem rows0 (c : Dev nD) (t : Fin cfg0.N) (r : Fin 2048) (r' : Fin 16384) (h : r'.val = 2048 * t.val + r.val) (k : Fin 64) :
    (iblk m c 0 t : Vec Ideal S2048x64 .i32) (ix2 r k) = m ((c : Thread nD τ).loc main_arg0) (ix2 r' k) := by
  have hi := (by decide +kernel : ∀ t : Fin grid0.N, win0_0.index t 0 = t.val ∧ win0_0.index t 1 = 0) t
  unfold iblk
  rw [View.read_apply]
  show V m c main_arg0 _ = _
  rw [V_main_arg0]
  congr 1
  funext ax
  apply Fin.ext
  match ax with
  | ⟨0, _⟩ => show win0_0.index t 0 * 2048 + 1 * r.val = r'.val; rw [hi.1]; omega
  | ⟨1, _⟩ => show win0_0.index t 1 * 64 + 1 * k.val = k.val; rw [hi.2]; omega

/-- and likewise for the second array. -/
theorem rows1 (c : Dev nD) (t : Fin cfg0.N) (r : Fin 2048) (r' : Fin 16384) (h : r'.val = 2048 * t.val + r.val) (k : Fin 64) :
    (iblk m c 1 t : Vec Ideal S2048x64 .i32) (ix2 r k) = m ((c : Thread nD τ).loc main_arg1) (ix2 r' k) := by
  have hi := (by decide +kernel : ∀ t : Fin grid0.N, win0_1.index t 0 = t.val ∧ win0_1.index t 1 = 0) t
  unfold iblk
  rw [View.read_apply]
  show V m c main_arg1 _ = _
  rw [V_main_arg1]
  congr 1
  funext ax
  apply Fin.ext
  match ax with
  | ⟨0, _⟩ => show win0_1.index t 0 * 2048 + 1 * r.val = r'.val; rw [hi.1]; omega
  | ⟨1, _⟩ => show win0_1.index t 1 * 64 + 1 * k.val = k.val; rw [hi.2]; omega

/-! ## The scratch buffers hold the casts at every point -/

/-- After every point the two scratch buffers hold the casts of the two weight matrices: the first point stores them,
    no later point stores into them. -/
theorem scratch_eq (c : Dev nD) : ∀ (n : ℕ) (h : n < cfg0.N),
    (outsAt0 m c n h).2.1 = k0_pay3 (V m c main_arg2 : Vec Ideal S128x2048 .f32)
      ∧ (outsAt0 m c n h).2.2 = k0_pay4 (V m c main_arg4 : Vec Ideal S2048x2048 .f32)
  | 0, h => by
    rw [outsAt0_A m c ⟨0, h⟩ rfl]
    dsimp only
    rw [scratch₁_first, scratch₂_first, blk2, blk4]
    exact ⟨rfl, rfl⟩
  | n + 1, h => by
    have hN : cfg0.N = 8 := N_0
    have hB : ¬(⟨n + 1, h⟩ : Fin cfg0.N).val % 8 = 0 := by dsimp only; omega
    rw [outsAt0_B m c ⟨n + 1, h⟩ hB]
    dsimp only
    unfold sout0_B_0 sout0_B_1
    exact scratch_eq c n (Nat.lt_of_succ_lt h)

/-- So at every point the output block is the tile computed from the casts of the two weight matrices. -/
theorem outs_eq (c : Dev nD) (t : Fin cfg0.N) :
    (outsAt0 m c t.val t.isLt).1
      = tile (iblk m c 0 t) (iblk m c 1 t) (iblk m c 3 t) (iblk m c 5 t) (iblk m c 6 t) (iblk m c 7 t)
          (k0_pay3 (V m c main_arg2 : Vec Ideal S128x2048 .f32)) (k0_pay4 (V m c main_arg4 : Vec Ideal S2048x2048 .f32)) := by
  by_cases h0 : t.val % 8 = 0
  · rw [outsAt0_A m c t h0]
    dsimp only
    rw [out_first, blk2, blk4]
  · rw [outsAt0_B m c t h0]
    dsimp only
    rw [out_later, (scratch_eq m c (t.val - 1) (Nat.lt_of_le_of_lt (Nat.sub_le _ _) t.isLt)).1,
      (scratch_eq m c (t.val - 1) (Nat.lt_of_le_of_lt (Nat.sub_le _ _) t.isLt)).2]

/-! ## The reshaped vectors -/

/-- The first bias as the kernel's window finds it: the vector `b₁` cast to one row. -/
theorem bias₁_eq (c : Dev nD) :
    (V m c main_v0 : S1x2048.Idx → EReal) = shapeCast S1x2048 (m ((c : Thread nD τ).loc main_arg3)) shapeCasts_S2048_S1x2048 := by
  dsimp only [V, hostOps0]; after_results; rfl

/-- The second bias likewise. -/
theorem bias₂_eq (c : Dev nD) :
    (V m c main_v1 : S1x2048.Idx → EReal) = shapeCast S1x2048 (m ((c : Thread nD τ).loc main_arg5)) shapeCasts_S2048_S1x2048 := by
  dsimp only [V, hostOps0]; after_results; rfl

/-- The read-out weights: the one-column matrix `W₃` cast to one row. -/
theorem readW_eq (c : Dev nD) :
    (V m c main_v2 : S1x2048.Idx → EReal) = shapeCast S1x2048 (m ((c : Thread nD τ).loc main_arg6)) shapeCasts_S2048x1_S1x2048 := by
  dsimp only [V, hostOps0]; after_results; rfl

/-- The read-out bias: the one-entry vector `b₃` cast to a one-by-one matrix. -/
theorem readB_eq (c : Dev nD) :
    (V m c main_v3 : S1x1.Idx → EReal) = shapeCast S1x1 (m ((c : Thread nD τ).loc main_arg7)) shapeCasts_S1_S1x1 := by
  dsimp only [V, hostOps0]; after_results; rfl

/-- Entry `(0, j)` of the first bias row is `b₁ j`, -/
theorem bias₁_apply (c : Dev nD) (t : Fin cfg0.N) (j : Fin 2048) :
    (iblk m c 3 t : Vec Ideal S1x2048 .f32) (ix2 (0 : Fin 1) j) = m ((c : Thread nD τ).loc main_arg3) (ix1 j) := by
  rw [blk3]
  show (V m c main_v0 : S1x2048.Idx → EReal) (ix2 (0 : Fin 1) j) = _
  rw [bias₁_eq]
  exact shapeCast_n_1n_apply _ shapeCasts_S2048_S1x2048 0 j

/-- of the second `b₂ j`, -/
theorem bias₂_apply (c : Dev nD) (t : Fin cfg0.N) (j : Fin 2048) :
    (iblk m c 5 t : Vec Ideal S1x2048 .f32) (ix2 (0 : Fin 1) j) = m ((c : Thread nD τ).loc main_arg5) (ix1 j) := by
  rw [blk5]
  show (V m c main_v1 : S1x2048.Idx → EReal) (ix2 (0 : Fin 1) j) = _
  rw [bias₂_eq]
  exact shapeCast_n_1n_apply _ shapeCasts_S2048_S1x2048 0 j

/-- of the read-out row `W₃ (k, 0)`: both are the `k`-th of the 2048 entries in row-major order, -/
theorem readW_apply (c : Dev nD) (t : Fin cfg0.N) (k : Fin 2048) :
    (iblk m c 6 t : Vec Ideal S1x2048 .f32) (ix2 (0 : Fin 1) k) = m ((c : Thread nD τ).loc main_arg6) (ix2 k (0 : Fin 1)) := by
  rw [blk6]
  show (V m c main_v2 : S1x2048.Idx → EReal) (ix2 (0 : Fin 1) k) = _
  rw [readW_eq]
  exact shapeCast_apply _ shapeCasts_S2048x1_S1x2048 _ _ (by
    rw [Shape.rowMajor_val_two, Shape.rowMajor_val_two]
    show k.val * 1 + 0 = 0 * 2048 + k.val
    omega)

/-- and the read-out bias the kernel extracts is `b₃ 0`. -/
theorem readB_apply (c : Dev nD) (t : Fin cfg0.N) :
    k0_pay8 (F := Ideal) (iblk m c 7 t) = m ((c : Thread nD τ).loc main_arg7) (ix1 (0 : Fin 1)) := by
  rw [blk7]
  unfold k0_pay8
  show (V m c main_v3 : S1x1.Idx → EReal) (ix2 (0 : Fin 1) (0 : Fin 1)) = _
  rw [readB_eq]
  exact shapeCast_n_1n_apply _ shapeCasts_S1_S1x1 0 0

/-! ## What a point writes back, and the result array -/

/-- The network of the eight argument arrays, as contents of the result array. -/
abbrev result (c : Dev nD) : S16384.Idx → EReal :=
  network (a := 16384) (m := 64) (H := 2048) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) two

/-- Row `r` of point `t`'s tile is the network's value on row `2048 t + r` of the batch. -/
theorem tileNet_eq (c : Dev nD) (t : Fin cfg0.N) (r : Fin 2048) (r' : Fin 16384) (h : r'.val = 2048 * t.val + r.val) :
    tileNet (iblk m c 0 t) (iblk m c 1 t) (iblk m c 3 t) (iblk m c 5 t) (iblk m c 6 t) (iblk m c 7 t)
        (V m c main_arg2 : Vec Ideal S128x2048 .f32) (V m c main_arg4 : Vec Ideal S2048x2048 .f32) r
      = result m c (ix1 r') := by
  unfold tileNet result
  rw [network_apply, readB_apply]
  have e1 : (fun i : (⟨1, ![2048]⟩ : Shape).Idx => (iblk m c 3 t : Vec Ideal S1x2048 .f32) (ix2 (0 : Fin 1) (i 0)))
      = m ((c : Thread nD τ).loc main_arg3) := funext fun i => by
    obtain ⟨j, rfl⟩ : ∃ j : Fin 2048, i = ix1 j := ⟨i 0, eq_ix1 i⟩
    exact bias₁_apply m c t j
  have e2 : (fun i : (⟨1, ![2048]⟩ : Shape).Idx => (iblk m c 5 t : Vec Ideal S1x2048 .f32) (ix2 (0 : Fin 1) (i 0)))
      = m ((c : Thread nD τ).loc main_arg5) := funext fun i => by
    obtain ⟨j, rfl⟩ : ∃ j : Fin 2048, i = ix1 j := ⟨i 0, eq_ix1 i⟩
    exact bias₂_apply m c t j
  have e3 : (fun k : Fin 2048 => (iblk m c 6 t : Vec Ideal S1x2048 .f32) (ix2 (0 : Fin 1) k))
      = fun k : Fin 2048 => m ((c : Thread nD τ).loc main_arg6) (ix2 k (0 : Fin 1)) := funext fun k => readW_apply m c t k
  rw [e1, e2, e3, V_main_arg2, V_main_arg4]
  refine logProb_congr _ _ _ _ _ _ _ _ r r' fun j => ?_
  rw [firstProd_apply, firstProd_apply]
  exact congrArg₂ (· + ·)
    (prodRow_congr₂ _ _ _ _ r r' j (fun k => congrArg (fun b : BitVec 32 => ((b.toInt : ℝ) : EReal)) (rows0 m c t r r' h k)) (fun _ => rfl))
    (prodRow_congr₂ _ _ _ _ r r' j (fun k => congrArg (fun b : BitVec 32 => ((b.toInt : ℝ) : EReal)) (rows1 m c t r r' h k)) (fun _ => rfl))

/-- WHAT POINT `t` WRITES BACK is block `t` of the network of the argument arrays. -/
theorem flushed_eq (c : Dev nD) (t : Fin cfg0.N) :
    (dats m 0 c).flushed 8 t = ((cfg0.win 8).blk t).view.read (Elt Ideal) (result m c) := by
  have hi := (by decide +kernel : ∀ t : Fin grid0.N, win0_8.index t 0 = t.val) t
  have hN : t.val < 8 := lt_of_lt_of_eq t.isLt (show cfg0.N = 8 from N_0)
  rw [Cert.KernelIdeal.Value.flushed8, outs_eq]
  funext y
  rw [View.read_apply]
  show tile (iblk m c 0 t) (iblk m c 1 t) (iblk m c 3 t) (iblk m c 5 t) (iblk m c 6 t) (iblk m c 7 t)
      (k0_pay3 (V m c main_arg2 : Vec Ideal S128x2048 .f32)) (k0_pay4 (V m c main_arg4 : Vec Ideal S2048x2048 .f32)) y = _
  rw [tile_apply]
  have hy : (y 0).val < 2048 := (y 0).isLt
  refine (tileNet_eq m c t (y 0) ⟨2048 * t.val + (y 0).val, by omega⟩ rfl).trans ?_
  refine congrArg (result m c) (funext fun ax => Fin.ext ?_)
  match ax with
  | ⟨0, _⟩ => show 2048 * t.val + (y 0).val = win0_8.index t 0 * 2048 + 1 * (y 0).val; rw [hi]; omega

/-- An index of the result array is in point `t`'s block iff its coordinate is in the block's range. -/
theorem mem_blk (t : Fin cfg0.N) (i : S16384.Idx) :
    i ∈ ((cfg0.win 8).blk t).view.set ↔ ∀ a : Fin 1, win0_8.index t a * S2048.size a ≤ (i a).val ∧ (i a).val < win0_8.index t a * S2048.size a + S2048.size a := by
  show i ∈ ((View.whole main_v4).slice (win0_8.rect t)).set ↔ _
  rw [View.set_slice_whole, Rect.mem_set_unit]
  exact Iff.rfl

/-- THE RESULT ARRAY after the run: the eight blocks tile it, so it holds the network of the argument arrays. -/
theorem final (c : Dev nD) : (dats m 0 c).arrAt 8 cfg0.N = result m c :=
  (dats m 0 c).arrAt_eq_of_cover 8 (result m c) (fun t _ => flushed_eq m c t) fun i => by
    have hi : (i 0).val < 16384 := (i 0).isLt
    have hN : cfg0.N = 8 := N_0
    have hq : (i 0).val / 2048 < cfg0.N := lt_of_lt_of_eq (by omega) hN.symm
    refine ⟨⟨(i 0).val / 2048, hq⟩, flush0_8 _, ?_⟩
    rw [mem_blk]
    have hx := (by decide +kernel : ∀ t : Fin grid0.N, win0_8.index t 0 = t.val) ⟨(i 0).val / 2048, hq⟩
    intro a
    match a with
    | ⟨0, _⟩ =>
      show win0_8.index _ 0 * 2048 ≤ (i 0).val ∧ (i 0).val < win0_8.index _ 0 * 2048 + 2048
      rw [hx]
      show (i 0).val / 2048 * 2048 ≤ (i 0).val ∧ (i 0).val < (i 0).val / 2048 * 2048 + 2048
      omega

/-- The run, read: the result array at the network of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Sweep

end
-- ==== Proof.RefValue.lean ====
/-
  The reference program's result, index by index, is the network of `Proof/LibTanhNetwork.lean`.
-/
import proofs.«177548_g17669495456005_cont_8to1_950_6_alg».proof.Proof.Gen.ReferenceIdeal.Read
import proofs.«177548_g17669495456005_cont_8to1_950_6_alg».proof.Proof.LibTanhNetwork
import proofs.«177548_g17669495456005_cont_8to1_950_6_alg».proof.Proof.LibPlainDot

noncomputable section

namespace Cert.ReferenceIdeal.RefValue

open Cert.ReferenceIdeal Cert.ReferenceIdeal.Gen Cert.ReferenceIdeal.Read Idealize.ShloMosaic Idealize.ShloMosaic.ValueIdx
open Cert.DenseLayer Cert.BiasLayer Cert.TanhNetwork

/-! ## The joined row of occupation numbers -/

/-- At a column of the first half, the joined row reads the first array. -/
private theorem joined_left (x0 x1 : (⟨S16384x64, .i32⟩ : BufTy).Contents (Elt Ideal)) (r : Fin 16384) (k : Fin 64) :
    val_main_v0 (F := Ideal) x0 x1 (ix2 r (Fin.castAdd 64 k)) = x0 (ix2 r k) := by
  unfold val_main_v0
  exact concatenate_pair_apply_left (1 : Fin S16384x128.rank) x0 x1 _ (ix2 r (Fin.castAdd 64 k)) rfl (ix2 r k)
    (fun b => by
      match b with
      | ⟨0, _⟩ => rfl
      | ⟨1, _⟩ => rfl)

/-- At a column of the second half, the joined row reads the second array, the first half's width less. -/
private theorem joined_right (x0 x1 : (⟨S16384x64, .i32⟩ : BufTy).Contents (Elt Ideal)) (r : Fin 16384) (k : Fin 64) :
    val_main_v0 (F := Ideal) x0 x1 (ix2 r (Fin.natAdd 64 k)) = x1 (ix2 r k) := by
  unfold val_main_v0
  exact concatenate_pair_apply_right (1 : Fin S16384x128.rank) x0 x1 _ (ix2 r (Fin.natAdd 64 k)) rfl rfl (ix2 r k)
    (fun b hb => by
      match b, hb with
      | ⟨0, _⟩, _ => rfl
      | ⟨1, _⟩, hb => exact absurd rfl hb)
    (by show k.val + 64 = 64 + k.val; omega)

/-! ## The first layer -/

/-- The converted joined row agrees with the first array's numbers on the first half of the columns, -/
private theorem row_left (x0 x1 : (⟨S16384x64, .i32⟩ : BufTy).Contents (Elt Ideal)) (r : Fin 16384) (k : Fin 64) :
    val_main_v1 (F := Ideal) x0 x1 (ix2 r (Fin.castAdd 64 k)) = occ (a := 16384) (m := 64) x0 (ix2 r k) := by
  rw [val_main_v1_apply, joined_left]
  rfl

/-- and with the second array's on the second half. -/
private theorem row_right (x0 x1 : (⟨S16384x64, .i32⟩ : BufTy).Contents (Elt Ideal)) (r : Fin 16384) (k : Fin 64) :
    val_main_v1 (F := Ideal) x0 x1 (ix2 r (Fin.natAdd 64 k)) = occ (a := 16384) (m := 64) x1 (ix2 r k) := by
  rw [val_main_v1_apply, joined_right]
  rfl

/-- The first product at `(r, j)`: the joined row against column `j` is the sum of the two halves' products. -/
private theorem first_products (x0 x1 : (⟨S16384x64, .i32⟩ : BufTy).Contents (Elt Ideal))
    (x2 : (⟨S128x2048, .f32⟩ : BufTy).Contents (Elt Ideal)) (r : Fin 16384) (j : Fin 2048) :
    val_main_v2 (F := Ideal) x0 x1 x2 (ix2 r j)
      = firstProd (a := 16384) (m := 64) (H := 2048) (occ x0) (occ x1) x2 (ix2 r j) := by
  rw [val_main_v2_apply]
  refine Eq.trans ?_ (prodRow_joined (a := 16384) (m := 64) (H := 2048) (val_main_v1 (F := Ideal) x0 x1) (occ x0) (occ x1) x2 r
    (row_left x0 x1 r) (row_right x0 x1 r) j)
  unfold prodRow
  refine Finset.sum_congr rfl fun k _ => ?_
  have el : lidx_main_v2 (ix2 r j) k = ix2 r k := funext fun a => Fin.ext (by
    match a with
    | ⟨0, _⟩ => rfl
    | ⟨1, _⟩ => rfl)
  have er : ridx_main_v2 (ix2 r j) k = ix2 k j := funext fun a => Fin.ext (by
    match a with
    | ⟨0, _⟩ => rfl
    | ⟨1, _⟩ => rfl)
  rw [el, er]

/-- The first activations at `(r, j)`: `tanh` of the first product plus the first bias. -/
private theorem first_acts (x0 x1 : (⟨S16384x64, .i32⟩ : BufTy).Contents (Elt Ideal))
    (x2 : (⟨S128x2048, .f32⟩ : BufTy).Contents (Elt Ideal)) (x3 : (⟨S2048, .f32⟩ : BufTy).Contents (Elt Ideal))
    (r : Fin 16384) (j : Fin 2048) :
    val_main_v6 (F := Ideal) x0 x1 x2 x3 (ix2 r j)
      = act (firstProd (a := 16384) (m := 64) (H := 2048) (occ x0) (occ x1) x2) x3 (ix2 r j) := by
  have eb : idx_main_v3 (idx_main_v4 (ix2 r j)) = ix1 j := funext fun a => Fin.ext (by
    match a with
    | ⟨0, _⟩ => rfl)
  rw [val_main_v6_apply, val_main_v5_apply, val_main_v4_apply, val_main_v3_apply, first_products, eb, act_apply]
  rfl

/-! ## The second layer -/

/-- The second activations at `(r, k)`: `tanh` of the first activations' row against column `k` of the second
    weights, plus the second bias. -/
private theorem second_acts (x0 x1 : (⟨S16384x64, .i32⟩ : BufTy).Contents (Elt Ideal))
    (x2 : (⟨S128x2048, .f32⟩ : BufTy).Contents (Elt Ideal)) (x3 : (⟨S2048, .f32⟩ : BufTy).Contents (Elt Ideal))
    (x4 : (⟨S2048x2048, .f32⟩ : BufTy).Contents (Elt Ideal)) (x5 : (⟨S2048, .f32⟩ : BufTy).Contents (Elt Ideal))
    (r : Fin 16384) (k : Fin 2048) :
    val_main_v11 (F := Ideal) x0 x1 x2 x3 x4 x5 (ix2 r k)
      = hidden (firstProd (a := 16384) (m := 64) (H := 2048) (occ x0) (occ x1) x2) x3 x4 x5 (ix2 r k) := by
  have eb : idx_main_v8 (idx_main_v9 (ix2 r k)) = ix1 k := funext fun a => Fin.ext (by
    match a with
    | ⟨0, _⟩ => rfl)
  rw [val_main_v11_apply, val_main_v10_apply, val_main_v7_apply, val_main_v9_apply, val_main_v8_apply, eb, hidden_apply,
    affine_apply]
  refine congrArg (fun s : EReal => Ideal.tanh (s + x5 (ix1 k))) ?_
  unfold prodRow
  refine Finset.sum_congr rfl fun j _ => ?_
  have el : lidx_main_v7 (ix2 r k) j = ix2 r j := funext fun a => Fin.ext (by
    match a with
    | ⟨0, _⟩ => rfl
    | ⟨1, _⟩ => rfl)
  have er : ridx_main_v7 (ix2 r k) j = ix2 j k := funext fun a => Fin.ext (by
    match a with
    | ⟨0, _⟩ => rfl
    | ⟨1, _⟩ => rfl)
  rw [el, er, first_acts]

/-! ## The read-out -/

/-- The read-out at `r`: the second activations' row against the one column of the last weights, plus the last
    bias, times the constant. -/
private theorem readout_at (x0 x1 : (⟨S16384x64, .i32⟩ : BufTy).Contents (Elt Ideal))
    (x2 : (⟨S128x2048, .f32⟩ : BufTy).Contents (Elt Ideal)) (x3 : (⟨S2048, .f32⟩ : BufTy).Contents (Elt Ideal))
    (x4 : (⟨S2048x2048, .f32⟩ : BufTy).Contents (Elt Ideal)) (x5 : (⟨S2048, .f32⟩ : BufTy).Contents (Elt Ideal))
    (x6 : (⟨S2048x1, .f32⟩ : BufTy).Contents (Elt Ideal)) (x7 : (⟨S1, .f32⟩ : BufTy).Contents (Elt Ideal))
    (r : Fin 16384) :
    val_main_v18 (F := Ideal) x0 x1 x2 x3 x4 x5 x6 x7 (ix1 r)
      = logProb (firstProd (a := 16384) (m := 64) (H := 2048) (occ x0) (occ x1) x2) x3 x4 x5
          (fun k => x6 (ix2 k (0 : Fin 1))) (x7 (ix1 (0 : Fin 1))) (Ideal.ofBits .f32 0x40000000#32) r := by
  have e16 : idx_main_v16 (ix1 r) = ix2 r (0 : Fin 1) := funext fun a => Fin.ext (by
    match a with
    | ⟨0, _⟩ => exact Nat.div_one _
    | ⟨1, _⟩ => rfl)
  have eb : idx_main_v13 (idx_main_v14 (ix2 r (0 : Fin 1))) = ix1 (0 : Fin 1) := funext fun a => Fin.ext (by
    match a with
    | ⟨0, _⟩ => rfl)
  rw [val_main_v18_apply, val_main_v17_apply, val_main_cst_apply, val_main_v16_apply, e16, val_main_v15_apply,
    val_main_v12_apply, val_main_v14_apply, val_main_v13_apply, eb]
  unfold logProb readout
  refine congrArg (fun s : EReal => Ideal.ofBits .f32 0x40000000#32 * (s + x7 (ix1 (0 : Fin 1)))) ?_
  refine Finset.sum_congr rfl fun k _ => ?_
  have el : lidx_main_v12 (ix2 r (0 : Fin 1)) k = ix2 r k := funext fun a => Fin.ext (by
    match a with
    | ⟨0, _⟩ => rfl
    | ⟨1, _⟩ => rfl)
  have er : ridx_main_v12 (ix2 r (0 : Fin 1)) k = ix2 k (0 : Fin 1) := funext fun a => Fin.ext (by
    match a with
    | ⟨0, _⟩ => rfl
    | ⟨1, _⟩ => rfl)
  rw [el, er, second_acts]

/-! ## The whole result -/

/-- The reference's last stage is the network of its eight arguments. -/
theorem result_eq (x0 x1 : (⟨S16384x64, .i32⟩ : BufTy).Contents (Elt Ideal)) (x2 : (⟨S128x2048, .f32⟩ : BufTy).Contents (Elt Ideal))
    (x3 : (⟨S2048, .f32⟩ : BufTy).Contents (Elt Ideal)) (x4 : (⟨S2048x2048, .f32⟩ : BufTy).Contents (Elt Ideal))
    (x5 : (⟨S2048, .f32⟩ : BufTy).Contents (Elt Ideal)) (x6 : (⟨S2048x1, .f32⟩ : BufTy).Contents (Elt Ideal))
    (x7 : (⟨S1, .f32⟩ : BufTy).Contents (Elt Ideal)) :
    val_main_v18 (F := Ideal) x0 x1 x2 x3 x4 x5 x6 x7
      = network (a := 16384) (m := 64) (H := 2048) x0 x1 x2 x3 x4 x5 x6 x7 (Ideal.ofBits .f32 0x40000000#32) := by
  funext i
  obtain ⟨r, rfl⟩ : ∃ r : Fin 16384, i = ix1 r := ⟨i 0, eq_ix1 i⟩
  rw [network_apply]
  exact readout_at x0 x1 x2 x3 x4 x5 x6 x7 r

end Cert.ReferenceIdeal.RefValue

end
-- ==== Proof.lean ====
/-
  The certificate of a fused multi-layer perceptron kernel against its plain reference.

  Both programs compute, for each of 16384 configurations given by two rows `α`, `β` of 64 occupation numbers,

      out = 2 · ( tanh ( tanh ([α | β] · W₁ + b₁) · W₂ + b₂ ) · W₃ + b₃ ).

  The reference joins `α` and `β` into one row of 128 numbers and multiplies it by `W₁`; the kernel walks the batch
  in eight tiles of 2048 rows, multiplies `α` by the top 64 rows of `W₁` and `β` by the bottom 64 and adds the two
  products, keeps the two large weight matrices in scratch buffers it fills at the first tile, casts them and the first
  activations to a narrower float format before each product, and takes `W₃` as a row and the biases as rows through
  reshapes.  At the ideal values a change of float format is the identity and a matrix product is the exact sum, so the
  only law that separates the two programs is that a sum over 64 + 64 indices is the sum over the first 64 plus the sum
  over the last 64 — a law of addition alone, which holds on all extended reals; the precondition (finite weights) is
  not used by the value claim.

  `Proof/LibTanhNetwork.lean` states the network as a plain function of the eight arrays; `Proof/RefValue.lean` reads the
  reference's result as that function; `Proof/TilePieces.lean`, `Proof/TileValue.lean` and `Proof/Sweep.lean` read the
  kernel's result array as the same function, tile by tile.  The three frames are the generated ones; the ideal pass
  rewrote nothing, so there is nothing to preserve.
-/
import proofs.«177548_g17669495456005_cont_8to1_950_6_alg».proof.Defs
import proofs.«177548_g17669495456005_cont_8to1_950_6_alg».proof.Proof.Gen.Kernel
import proofs.«177548_g17669495456005_cont_8to1_950_6_alg».proof.Proof.Gen.Kernel.Skeleton
import proofs.«177548_g17669495456005_cont_8to1_950_6_alg».proof.Proof.Gen.Kernel.Launch
import proofs.«177548_g17669495456005_cont_8to1_950_6_alg».proof.Proof.Gen.Kernel.Points
import proofs.«177548_g17669495456005_cont_8to1_950_6_alg».proof.Proof.Gen.Kernel.Frame
import proofs.«177548_g17669495456005_cont_8to1_950_6_alg».proof.Proof.Gen.KernelIdeal
import proofs.«177548_g17669495456005_cont_8to1_950_6_alg».proof.Proof.Gen.KernelIdeal.Skeleton
import proofs.«177548_g17669495456005_cont_8to1_950_6_alg».proof.Proof.Gen.KernelIdeal.Launch
import proofs.«177548_g17669495456005_cont_8to1_950_6_alg».proof.Proof.Gen.KernelIdeal.Points
import proofs.«177548_g17669495456005_cont_8to1_950_6_alg».proof.Proof.Gen.KernelIdeal.Frame
import proofs.«177548_g17669495456005_cont_8to1_950_6_alg».proof.Proof.Gen.ReferenceIdeal
import proofs.«177548_g17669495456005_cont_8to1_950_6_alg».proof.Proof.Gen.Pre_finite_inputs
import proofs.«177548_g17669495456005_cont_8to1_950_6_alg».proof.Proof.Gen.KernelIdeal.Value
import proofs.«177548_g17669495456005_cont_8to1_950_6_alg».proof.Proof.Gen.ReferenceIdeal.Run
import proofs.«177548_g17669495456005_cont_8to1_950_6_alg».proof.Proof.Gen.ReferenceIdeal.Read
import proofs.«177548_g17669495456005_cont_8to1_950_6_alg».proof.Proof.Sweep
import proofs.«177548_g17669495456005_cont_8to1_950_6_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal values the kernel's result array ends at the network of its eight arguments (the sweep over the
    eight tiles), the reference's at its composed term of arguments that agree, which is the same network. -/
theorem algebraic : Cert.algebraic_KernelIdeal_ReferenceIdeal := by
  intro m ρ m' ρ' _ hagree
  refine ⟨fun c => Cert.KernelIdeal.Sweep.result m c, Cert.KernelIdeal.Sweep.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
